-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x1024 : Shape := ⟨3, ![16, 2048, 1024]⟩
abbrev S16x1024 : Shape := ⟨2, ![16, 1024]⟩
abbrev S1024x1024 : Shape := ⟨2, ![1024, 1024]⟩
abbrev S1024 : Shape := ⟨1, ![1024]⟩
abbrev S_ : Shape := ⟨0, ![]⟩

class Facts : Prop where
  bcast_S_S16x2048x1024 : S_.BroadcastsInDim S16x2048x1024 (![] : Fin 0 → Fin S16x2048x1024.rank)
  reducesTo_S16x2048x1024_S_d0_1_2 : S16x2048x1024.ReducesTo [0, 1, 2] S_
  h_S_ : 0 < S_.numel
  bcast_S_S16x1024 : S_.BroadcastsInDim S16x1024 (![] : Fin 0 → Fin S16x1024.rank)
  reducesTo_S16x1024_S_d0_1 : S16x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S16x2048x1024 .f32) (main_arg1 : FVec F S16x1024 .f32) (main_arg2 : FVec F S1024x1024 .f32) (main_arg3 : FVec F S1024x1024 .f32) (main_arg4 : FVec F S1024 .f32) (main_arg5 : FVec F S1024 .f32) : IVec S_ 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_c : IVec S_ 1 := constantI S_ 1 1#1
  let main_v3 : IVec S_ 1 := (fun x v => Host.reduce IntOp.andi x v reducesTo_S16x2048x1024_S_d0_1_2 h_S_) main_v2 main_c
  let main_v4 : FVec F S16x1024 .f32 := Host.absf main_arg1
  let main_cst_0 : FVec F S_ .f32 := constant S_ .f32 0x7F800000#32
  let main_v5 : FVec F S16x1024 .f32 := broadcastInDim S16x1024 ![] bcast_S_S16x1024 main_cst_0
  let main_v6 : IVec S16x1024 1 := cmpf .olt main_v4 main_v5
  let main_c_1 : IVec S_ 1 := constantI S_ 1 1#1
  let main_v7 : IVec S_ 1 := (fun x v => Host.reduce IntOp.andi x v reducesTo_S16x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_v13 main_v16
-- ==== Kernel.lean ====
abbrev S16x2048x1024 : Shape := ⟨3, ![16, 2048, 1024]⟩
abbrev S16x1024 : Shape := ⟨2, ![16, 1024]⟩
abbrev S1024x1024 : Shape := ⟨2, ![1024, 1024]⟩
abbrev S1024 : Shape := ⟨1, ![1024]⟩
abbrev S1x1024 : Shape := ⟨2, ![1, 1024]⟩
abbrev S16x1x1024 : Shape := ⟨3, ![16, 1, 1024]⟩
abbrev S1x1024x1024 : Shape := ⟨3, ![1, 1024, 1024]⟩
abbrev S1x1x1024 : Shape := ⟨3, ![1, 1, 1024]⟩

abbrev nBuf : Space → Nat
  | .hbm => 18
  | .vmem => 7
  | .smem => 0
  | _ => 0

abbrev bufTy : (tb : Table) → Fin (tcTables nBuf tb) → BufTy
  | .hbm, ⟨0, _⟩ => ⟨S16x2048x1024, .f32⟩
  | .hbm, ⟨1, _⟩ => ⟨S16x1024, .f32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x1024, .f32⟩
  | .hbm, ⟨7, _⟩ => ⟨S16x1024, .f32⟩
  | .hbm, ⟨8, _⟩ => ⟨S1x1024, .f32⟩
  | .hbm, ⟨9, _⟩ => ⟨S16x1024, .f32⟩
  | .hbm, ⟨10, _⟩ => ⟨S16x1024, .f32⟩
  | .hbm, ⟨11, _⟩ => ⟨S1x1024, .f32⟩
  | .hbm, ⟨12, _⟩ => ⟨S16x1024, .f32⟩
  | .hbm, ⟨13, _⟩ => ⟨S16x1024, .f32⟩
  | .hbm, ⟨14, _⟩ => ⟨S16x1x1024, .f32⟩
  | .hbm, ⟨15, _⟩ => ⟨S1024x1024, .f32⟩
  | .hbm, ⟨16, _⟩ => ⟨S1024x1024, .bf16⟩
  | .hbm, ⟨17, _⟩ => ⟨S16x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1024x1024, .bf16⟩
  | .local _ .vmem, ⟨5, _⟩ => ⟨S1x1024x1024, .f32⟩
  | .local _ .vmem, ⟨6, _⟩ => ⟨S1x1024x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S16x1024_0_1 : S1x1024.BroadcastsInDim S16x1024 (![0, 1] : Fin 2 → Fin S16x1024.rank)
  shapeCasts_S16x1024_S16x1x1024 : S16x1024.ShapeCasts S16x1x1024
  bitsLt_bf16_f32 : FTy.bits .bf16 < FTy.bits .f32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x1024_S1024x1024 : S1x1024.Broadcasts S1024x1024
  shapeCasts_S1024x1024_S1x1024x1024 : S1024x1024.ShapeCasts S1x1024x1024
  dot_S16x1024_S1024x1024_S16x1024_1_0_0_1_n_n_wf : DotDims.WF S16x1024 S1024x1024 S16x1024 [1] [0] [0] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S16x2048x1024.size a
  hwx0_0 : ∀ i : grid0.Coords, EltTy.bits .f32 = 32 ∨ (Rect.block (s := S16x2048x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024.size a ≤ S16x1x1024.size a
  hwx0_1 : ∀ i : grid0.Coords, EltTy.bits .f32 = 32 ∨ (Rect.block (s := S16x1x1024) S1x1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S16x2048x1024.size a
  hwx0_3 : ∀ i : grid0.Coords, EltTy.bits .f32 = 32 ∨ (Rect.block (s := S16x2048x1024) S1x1024x1024.size (cc0_transform_3 i) (hinb0_3 i)).WholeWords (EltTy.packing .f32)

variable [Facts₀]

def dot_S16x1024_S1024x1024_S16x1024_1_0_0_1_n_n : DotDims S16x1024 S1024x1024 S16x1024 where
  lhsContracting := [1]
  rhsContracting := [0]
  lhsNonContracting := [0]
  rhsNonContracting := [1]
  lhsBatch := []
  rhsBatch := []
  wf := dot_S16x1024_S1024x1024_S16x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1x1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x2048x1024 : Shape := ⟨3, ![16, 2048, 1024]⟩
abbrev S16x1024 : Shape := ⟨2, ![16, 1024]⟩
abbrev S1024x1024 : Shape := ⟨2, ![1024, 1024]⟩
abbrev S1024 : Shape := ⟨1, ![1024]⟩
abbrev S1x1024 : Shape := ⟨2, ![1, 1024]⟩
abbrev S16x1x1024 : Shape := ⟨3, ![16, 1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x1024, .f32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x1024, .f32⟩
  | .hbm, ⟨7, _⟩ => ⟨S16x1024, .f32⟩
  | .hbm, ⟨8, _⟩ => ⟨S1x1024, .f32⟩
  | .hbm, ⟨9, _⟩ => ⟨S16x1024, .f32⟩
  | .hbm, ⟨10, _⟩ => ⟨S16x1024, .f32⟩
  | .hbm, ⟨11, _⟩ => ⟨S1x1024, .f32⟩
  | .hbm, ⟨12, _⟩ => ⟨S16x1024, .f32⟩
  | .hbm, ⟨13, _⟩ => ⟨S16x1024, .f32⟩
  | .hbm, ⟨14, _⟩ => ⟨S16x2048x1024, .f32⟩
  | .hbm, ⟨15, _⟩ => ⟨S16x1x1024, .f32⟩
  | .hbm, ⟨16, _⟩ => ⟨S16x2048x1024, .f32⟩
  | .hbm, ⟨17, _⟩ => ⟨S16x2048x1024, .f32⟩
  | .hbm, ⟨18, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S16x1024_0_1 : S1x1024.BroadcastsInDim S16x1024 (![0, 1] : Fin 2 → Fin S16x1024.rank)
  bcast_S16x1024_S16x1x1024_0_2 : S16x1024.BroadcastsInDim S16x1x1024 (![0, 2] : Fin 2 → Fin S16x1x1024.rank)
  bcast_S16x1x1024_S16x2048x1024_0_1_2 : S16x1x1024.BroadcastsInDim S16x2048x1024 (![0, 1, 2] : Fin 3 → Fin S16x2048x1024.rank)
  dot_S16x1024_S1024x1024_S16x1024_1_0_0_1_n_n_wf : DotDims.WF S16x1024 S1024x1024 S16x1024 [1] [0] [0] [1] [] []
  dot_S16x2048x1024_S1024x1024_S16x2048x1024_2_1_01_0_n_n_wf : DotDims.WF S16x2048x1024 S1024x1024 S16x2048x1024 [2] [1] [0, 1] [0] [] []

variable [Facts₀]

def dot_S16x1024_S1024x1024_S16x1024_1_0_0_1_n_n : DotDims S16x1024 S1024x1024 S16x1024 where
  lhsContracting := [1]
  rhsContracting := [0]
  lhsNonContracting := [0]
  rhsNonContracting := [1]
  lhsBatch := []
  rhsBatch := []
  wf := dot_S16x1024_S1024x1024_S16x1024_1_0_0_1_n_n_wf
def dot_S16x2048x1024_S1024x1024_S16x2048x1024_2_1_01_0_n_n : DotDims S16x2048x1024 S1024x1024 S16x2048x1024 where
  lhsContracting := [2]
  rhsContracting := [1]
  lhsNonContracting := [0, 1]
  rhsNonContracting := [0]
  lhsBatch := []
  rhsBatch := []
  wf := dot_S16x2048x1024_S1024x1024_S16x2048x1024_2_1_01_0_n_n_wf

class Facts : Prop extends Facts₀ where

variable [Facts]
-- ==== Proof.Cell.lean ====
/-
  The recurrent cell with a frozen hidden state, as one function of whole arrays.

  For an input sequence `x : [16, 2048, 1024]`, an input weight matrix `w : [1024, 1024]` (rows indexed by the hidden
  unit, columns by the input feature) and a per-batch bias row `ht : [16, 1024]`, the cell's output at batch `b`, step `s`
  and hidden unit `h` is

      tanh ( ∑ k, x[b, s, k] · w[h, k]  +  ht[b, h] )

  over the extended reals. The bias row does not depend on the step: every step sees the same hidden state, so the
  hidden-to-hidden product and both bias vectors collapse into `ht`, which this file leaves abstract.
-/
import Idealize.ShloMosaic.PureOps.Ideal
import Idealize.ShloMosaic.Lib.ValueIdx

noncomputable section

namespace Cert.Cell

open Idealize.ShloMosaic Idealize.ShloMosaic.ValueIdx

/-- The sequence's shape: batch × step × feature. -/
abbrev SeqShape : Shape := ⟨3, ![16, 2048, 1024]⟩
/-- A square weight matrix: hidden unit × input feature. -/
abbrev WeightShape : Shape := ⟨2, ![1024, 1024]⟩
/-- One row per batch entry: batch × hidden unit. -/
abbrev RowShape : Shape := ⟨2, ![16, 1024]⟩

/-- The pre-activation at `(b, s, h)`: row `(b, s)` of `x` against row `h` of `w`, plus the batch's bias at `h`. -/
def preact (x : SeqShape.Idx → EReal) (w : WeightShape.Idx → EReal) (ht : RowShape.Idx → EReal)
    (b : Fin 16) (s : Fin 2048) (h : Fin 1024) : EReal :=
  (∑ k : Fin 1024, x (ix3 b s k) * w (ix2 h k)) + ht (ix2 b h)

/-- The cell's output array: `tanh` of the pre-activation, index by index. -/
def cell (x : SeqShape.Idx → EReal) (w : WeightShape.Idx → EReal) (ht : RowShape.Idx → EReal) : SeqShape.Idx → EReal :=
  fun j => Ideal.tanh (preact x w ht (j 0) (j 1) (j 2))

theorem cell_apply (x : SeqShape.Idx → EReal) (w : WeightShape.Idx → EReal) (ht : RowShape.Idx → EReal)
    (b : Fin 16) (s : Fin 2048) (h : Fin 1024) :
    cell x w ht (ix3 b s h) = Ideal.tanh ((∑ k : Fin 1024, x (ix3 b s k) * w (ix2 h k)) + ht (ix2 b h)) := rfl

end Cert.Cell

end
-- ==== Proof.RefCell.lean ====
/-
  The reference computes the cell.

  Read one operation at a time, the reference's result at `(b, s, h)` is `tanh` of the sum of two terms: the einsum
  `∑ k, x[b, s, k] · W_ih[h, k]` (a product contracting the last axis of `x` with the last axis of `W_ih`), and the
  bias row `hx @ W_hh^T + b_hh + b_ih` at `(b, h)`, broadcast along the step axis. That is `Cell.cell` at the
  arguments, with the bias row left as the reference's own stage: nothing here opens it.
-/
import proofs.«127669_j52381421142740_1_alg».proof.Proof.Gen.ReferenceIdeal.Read
import proofs.«127669_j52381421142740_1_alg».proof.Proof.Cell

noncomputable section

namespace Cert.ReferenceIdeal.AsCell

open Cert.ReferenceIdeal Cert.ReferenceIdeal.Read Idealize.ShloMosaic Idealize.ShloMosaic.ValueIdx Cert.Cell

/-- The einsum's left factor at output index `i` and contraction index `k` is `x[i₀, i₁, k]`. -/
theorem lidx_eq (i : S16x2048x1024.Idx) (k : Fin 1024) : lidx_main_v8 i k = ix3 (i 0) (i 1) k :=
  funext fun a => Fin.ext (by match a with | ⟨0, _⟩ => rfl | ⟨1, _⟩ => rfl | ⟨2, _⟩ => rfl)

/-- Its right factor is `W_ih[i₂, k]`: the weight's row is the output's hidden unit. -/
theorem ridx_eq (i : S16x2048x1024.Idx) (k : Fin 1024) : ridx_main_v8 i k = ix2 (i 2) k :=
  funext fun a => Fin.ext (by match a with | ⟨0, _⟩ => rfl | ⟨1, _⟩ => rfl)

/-- The two broadcasts that spread the bias row along the step axis read it at `(i₀, i₂)`. -/
theorem bias_idx_eq (i : S16x2048x1024.Idx) : idx_main_v9 (idx_main_v10 i) = ix2 (i 0) (i 2) :=
  funext fun a => Fin.ext (by match a with | ⟨0, _⟩ => rfl | ⟨1, _⟩ => rfl)

/-- The reference's result is the cell of `x`, `W_ih` and the reference's bias row. -/
theorem result_eq (x0 : (⟨S16x2048x1024, .f32⟩ : BufTy).Contents (Elt Ideal)) (x1 : (⟨S16x1024, .f32⟩ : BufTy).Contents (Elt Ideal))
    (x2 x3 : (⟨S1024x1024, .f32⟩ : BufTy).Contents (Elt Ideal)) (x4 x5 : (⟨S1024, .f32⟩ : BufTy).Contents (Elt Ideal)) :
    val_main_v12 (F := Ideal) x0 x1 x2 x3 x4 x5 = cell x0 x2 (val_main_v7 (F := Ideal) x1 x3 x4 x5) := by
  funext i
  rw [val_main_v12_apply, val_main_v11_apply, val_main_v8_apply, val_main_v10_apply, val_main_v9_apply]
  simp only [lidx_eq, ridx_eq, bias_idx_eq, Ideal.hostUnary_tanh_def, Ideal.addf_def]
  rfl

end Cert.ReferenceIdeal.AsCell

end
-- ==== Proof.Payload.lean ====
/-
  What one grid point computes, at an index.

  The body loads a tile of the sequence (`[1, 1024, 1024]`: one batch entry, 1024 steps, all features), the
  transposed weight matrix (`[1024, 1024]`: feature × hidden unit) and the batch entry's bias row (`[1, 1, 1024]`),
  multiplies tile and matrix into a zero accumulator, adds the row to every step and applies `tanh`. Over the extended
  reals the narrowing of the tile before the product is the identity and the product is a plain sum, so at step `s`
  and hidden unit `h` the stored value is

      tanh ( ∑ k, tile[0, s, k] · wT[k, h]  +  row[0, 0, h] ).
-/
import proofs.«127669_j52381421142740_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-! ## The product's operand indices, axis by axis -/

theorem lhs_mm_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_mm_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhs_mm_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhs_mm_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The tile-by-matrix product into a zero accumulator, at `(s, h)`: row `s` of the left operand against column `h` of
    the right one. -/
theorem product_apply (l r : FVec Ideal S1024x1024 .bf16) (s h : Fin 1024) :
    matmul dot_S1024x1024_S1024x1024_S1024x1024_1_0_0_1_n_n none l r (constant S1024x1024 .f32 0x00000000#32) (ix2 s h)
      = ∑ k : Fin 1024, l (ix2 s k) * r (ix2 k h) := by
  simp only [matmul]
  rw [Ideal.matmul_constant_zero_apply, ← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ix2 s h) ((ValueIdx.contrEquiv1 dot_S1024x1024_S1024x1024_S1024x1024_1_0_0_1_n_n 1024 rfl rfl).symm k) = ix2 s k := funext fun a => Fin.ext (by
    match a with
    | ⟨0, _⟩ => exact lhs_mm_0 _ _
    | ⟨1, _⟩ => exact (lhs_mm_1 _ _).trans hk)
  have er : dot_S1024x1024_S1024x1024_S1024x1024_1_0_0_1_n_n.rhsIdx (ix2 s h) ((ValueIdx.contrEquiv1 dot_S1024x1024_S1024x1024_S1024x1024_1_0_0_1_n_n 1024 rfl rfl).symm k) = ix2 k h := funext fun a => Fin.ext (by
    match a with
    | ⟨0, _⟩ => exact (rhs_mm_0 _ _).trans hk
    | ⟨1, _⟩ => exact rhs_mm_1 _ _)
  rw [el, er]

/-! ## The stored value -/

/-- The value the body stores, at the tile's step `s` and hidden unit `h` (the leading unit coordinate `u` is `0`). -/
theorem stored_apply (tile : Vec Ideal S1x1024x1024 .f32) (wT : Vec Ideal S1024x1024 .bf16) (row : Vec Ideal S1x1x1024 .f32)
    (u : Fin 1) (s h : Fin 1024) :
    k0_pay1 (F := Ideal) tile wT row (ix3 u s h)
      = Ideal.tanh ((∑ k : Fin 1024, tile (ix3 (0 : Fin 1) s k) * wT (ix2 k h)) + row (ix3 (0 : Fin 1) (0 : Fin 1) h)) := by
  unfold k0_pay1
  rw [shapeCast_ab_1ab_apply]
  show Ideal.tanh (_ + _) = _
  rw [product_apply, broadcastTo_1b_ab_apply, shapeCast_1ab_ab_apply]
  simp only [truncf_apply, shapeCast_1ab_ab_apply, shapeCast_self]

end Cert.KernelIdeal.Payload

end
-- ==== Proof.HostPrefix.lean ====
/-
  The two arrays the host prepares for the grid.

  Before the grid runs, the host computes the bias row `hx @ W_hh^T + b_hh + b_ih` (`[16, 1024]`), gives it a unit
  step axis (`[16, 1, 1024]`) so that one batch entry's row is one block, and transposes `W_ih` into feature × hidden
  unit (narrowed to half precision, which over the extended reals changes nothing). Read at an index:

      bias3[b, 0, h] = biasRow[b, h]          wT[k, h] = W_ih[h, k].
-/
import proofs.«127669_j52381421142740_1_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.HostPrefix

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]

/-- The bias row: the hidden state against the transposed hidden-to-hidden weights, plus both bias vectors spread
    over the batch, `b_hh` first. -/
def biasRow (hx : (⟨S16x1024, .f32⟩ : BufTy).Contents (Elt F)) (whh : (⟨S1024x1024, .f32⟩ : BufTy).Contents (Elt F))
    (bih bhh : (⟨S1024, .f32⟩ : BufTy).Contents (Elt F)) : (⟨S16x1024, .f32⟩ : BufTy).Contents (Elt F) :=
  addf (addf (Host.dotGeneral dot_S16x1024_S1024x1024_S16x1024_1_0_0_1_n_n none hx (transpose S1024x1024 [1, 0] whh transposes_S1024x1024_S1024x1024_1_0))
      (broadcastInDim S16x1024 ![0, 1] bcast_S1x1024_S16x1024_0_1 (broadcastInDim S1x1024 ![1] bcast_S1024_S1x1024_1 bhh)))
    (broadcastInDim S16x1024 ![0, 1] bcast_S1x1024_S16x1024_0_1 (broadcastInDim S1x1024 ![1] bcast_S1024_S1x1024_1 bih))

variable (m : (ℓ : Loc nD τ sig) → Buf (Elt F) ℓ)

/-- The grid's second operand is the bias row of the arguments with a unit step axis. -/
theorem bias3_eq (c : Dev nD) :
    (V m c main_v8 : (⟨S16x1x1024, .f32⟩ : BufTy).Contents (Elt F))
      = shapeCast S16x1x1024 (biasRow (m ((c : Thread nD τ).loc main_arg1)) (m ((c : Thread nD τ).loc main_arg3))
          (m ((c : Thread nD τ).loc main_arg4)) (m ((c : Thread nD τ).loc main_arg5))) shapeCasts_S16x1024_S16x1x1024 := by
  dsimp only [V, hostOps0]; after_results; rfl

/-- The grid's third operand is `W_ih` transposed and narrowed. -/
theorem wT_eq (c : Dev nD) :
    (V m c main_v10 : (⟨S1024x1024, .bf16⟩ : BufTy).Contents (Elt F))
      = truncf .bf16 (transpose S1024x1024 [1, 0] (m ((c : Thread nD τ).loc main_arg2)) transposes_S1024x1024_S1024x1024_1_0) bitsLt_bf16_f32 := by
  dsimp only [V, hostOps0]; after_results

end Cert.KernelIdeal.HostPrefix

namespace Cert.KernelIdeal.HostPrefix

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- A `[16, 1024]` array given a unit middle axis reads, at `(b, u, h)`, the array at `(b, h)`. -/
theorem addStepAxis_apply (y : S16x1024.Idx → EReal) (b : Fin 16) (u : Fin 1) (h : Fin 1024) :
    shapeCast S16x1x1024 y shapeCasts_S16x1024_S16x1x1024 (ix3 b u h) = y (ix2 b h) :=
  shapeCast_apply y shapeCasts_S16x1024_S16x1x1024 _ _ (by
    have hu : u.val = 0 := by omega
    rw [Shape.rowMajor_val_three, Shape.rowMajor_val_two]
    show b.val * 1024 + h.val = (b.val * 1 + u.val) * 1024 + h.val
    rw [hu, Nat.mul_one, Nat.add_zero])

/-- The bias operand at batch entry `b` and hidden unit `h`. -/
theorem bias3_apply (c : Dev nD) (b : Fin 16) (u : Fin 1) (h : Fin 1024) :
    (V m c main_v8 : S16x1x1024.Idx → EReal) (ix3 b u h)
      = biasRow (F := Ideal) (m ((c : Thread nD τ).loc main_arg1)) (m ((c : Thread nD τ).loc main_arg3))
          (m ((c : Thread nD τ).loc main_arg4)) (m ((c : Thread nD τ).loc main_arg5)) (ix2 b h) := by
  rw [bias3_eq]; exact addStepAxis_apply _ b u h

/-- The weight operand at feature `k` and hidden unit `h` is `W_ih[h, k]`. -/
theorem wT_apply (c : Dev nD) (k h : Fin 1024) :
    (V m c main_v10 : S1024x1024.Idx → EReal) (ix2 k h) = (m ((c : Thread nD τ).loc main_arg2) : S1024x1024.Idx → EReal) (ix2 h k) := by
  rw [wT_eq]
  exact transpose_ix2_apply (m ((c : Thread nD τ).loc main_arg2) : S1024x1024.Idx → EReal) transposes_S1024x1024_S1024x1024_1_0 k h

end Cert.KernelIdeal.HostPrefix

end
-- ==== Proof.KernelArray.lean ====
/-
  From the grid's blocks to the whole output array.

  The grid has 16 × 2 points: point `(b, q)` handles batch entry `b` and the steps `1024·q … 1024·q + 1023`. Its tile of
  the sequence is `x[b, 1024·q + s, k]`, its bias block is the batch entry's row, the weight block is the whole
  transposed matrix, and it writes the output block `out[b, 1024·q + s, h]`. So what a point writes is the matching block
  of `Cell.cell` of the arguments; the 32 blocks tile the output, and the array ends holding `Cell.cell` everywhere.
-/
import proofs.«127669_j52381421142740_1_alg».proof.Proof.Gen.KernelIdeal.Value
import proofs.«127669_j52381421142740_1_alg».proof.Proof.Cell
import proofs.«127669_j52381421142740_1_alg».proof.Proof.Payload
import proofs.«127669_j52381421142740_1_alg».proof.Proof.HostPrefix
import Idealize.ShloMosaic.Lib.Pipeline.Value

noncomputable section

namespace Cert.KernelIdeal.Grid

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx Cert.Cell Cert.KernelIdeal.HostPrefix Cert.KernelIdeal.Payload

variable (m : (ℓ : Loc nD τ sig) → Buf (Elt Ideal) ℓ) (ρ : Dev nD → PrngReg)

theorem zero3 : (![0, 0, 0] : Fin 3 → Nat) = fun _ => 0 := funext fun a => by fin_cases a <;> rfl
theorem zero2 : (![0, 0] : Fin 2 → Nat) = fun _ => 0 := funext fun a => by fin_cases a <;> rfl

/-! ## The index maps, decided over the 32 points -/

/-- The tile moves with the output block; the bias block follows the batch entry only; the weight block never moves;
    the output's block indices are a batch entry, a half of the steps, and `0` on the hidden axis. -/
theorem blockIndex_facts : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 2) = 0 ∧ win0_2.index t (1 : Fin 2) = 0
    ∧ win0_3.index t (0 : Fin 3) ≤ 15 ∧ win0_3.index t (1 : Fin 3) ≤ 1 ∧ win0_3.index t (2 : Fin 3) = 0 :=
  (by decide +kernel : ∀ t : Fin grid0.N, _)

/-- Every (batch entry, half of the steps) is some point's output block. -/
theorem blockIndex_onto : ∀ (b : Fin 16) (q : Fin 2), ∃ t : Fin cfg0.N, win0_3.index t = ![b.val, q.val, 0] :=
  (by decide +kernel : ∀ (b : Fin 16) (q : Fin 2), ∃ t : Fin grid0.N, win0_3.index t = ![b.val, q.val, 0])

/-! ## Each input block, read off its array -/

/-- The sequence tile at point `t`: entry `y` is the argument `x` at the block's offset plus `y`, axis by axis. -/
theorem tile_apply (c : Dev nD) (t : Fin cfg0.N) (y : S1x1024x1024.Idx) (i : S16x2048x1024.Idx)
    (h0 : (i 0).val = win0_0.index t (0 : Fin 3) * 1 + 1 * (y 0).val)
    (h1 : (i 1).val = win0_0.index t (1 : Fin 3) * 1024 + 1 * (y 1).val)
    (h2 : (i 2).val = win0_0.index t (2 : Fin 3) * 1024 + 1 * (y 2).val) :
    (iblk m c 0 t : Vec Ideal S1x1024x1024 .f32) y = (m ((c : Thread nD τ).loc main_arg0) : S16x2048x1024.Idx → EReal) i := by
  unfold iblk
  rw [View.read_apply]
  show V m c main_arg0 _ = _
  rw [V_main_arg0]
  congr 1
  funext a
  apply Fin.ext
  match a with
  | ⟨0, _⟩ => show win0_0.index t (0 : Fin 3) * 1 + 1 * (y 0).val = (i 0).val; omega
  | ⟨1, _⟩ => show win0_0.index t (1 : Fin 3) * 1024 + 1 * (y 1).val = (i 1).val; omega
  | ⟨2, _⟩ => show win0_0.index t (2 : Fin 3) * 1024 + 1 * (y 2).val = (i 2).val; omega

/-- The bias block at point `t`, read off the host's reshaped bias row. -/
theorem row_apply (c : Dev nD) (t : Fin cfg0.N) (y : S1x1x1024.Idx) (i : S16x1x1024.Idx)
    (h0 : (i 0).val = win0_1.index t (0 : Fin 3) * 1 + 1 * (y 0).val)
    (h1 : (i 1).val = win0_1.index t (1 : Fin 3) * 1 + 1 * (y 1).val)
    (h2 : (i 2).val = win0_1.index t (2 : Fin 3) * 1024 + 1 * (y 2).val) :
    (iblk m c 1 t : Vec Ideal S1x1x1024 .f32) y = (V m c main_v8 : S16x1x1024.Idx → EReal) i := by
  unfold iblk
  rw [View.read_apply]
  show V m c main_v8 _ = _
  congr 1
  funext a
  apply Fin.ext
  match a with
  | ⟨0, _⟩ => show win0_1.index t (0 : Fin 3) * 1 + 1 * (y 0).val = (i 0).val; omega
  | ⟨1, _⟩ => show win0_1.index t (1 : Fin 3) * 1 + 1 * (y 1).val = (i 1).val; omega
  | ⟨2, _⟩ => show win0_1.index t (2 : Fin 3) * 1024 + 1 * (y 2).val = (i 2).val; omega

/-- The weight block at point `t`, read off the host's transposed weight matrix. -/
theorem weight_apply (c : Dev nD) (t : Fin cfg0.N) (y : S1024x1024.Idx) (i : S1024x1024.Idx)
    (h0 : (i 0).val = win0_2.index t (0 : Fin 2) * 1024 + 1 * (y 0).val)
    (h1 : (i 1).val = win0_2.index t (1 : Fin 2) * 1024 + 1 * (y 1).val) :
    (iblk m c 2 t : Vec Ideal S1024x1024 .bf16) y = (V m c main_v10 : S1024x1024.Idx → EReal) i := by
  unfold iblk
  rw [View.read_apply]
  show V m c main_v10 _ = _
  congr 1
  funext a
  apply Fin.ext
  match a with
  | ⟨0, _⟩ => show win0_2.index t (0 : Fin 2) * 1024 + 1 * (y 0).val = (i 0).val; omega
  | ⟨1, _⟩ => show win0_2.index t (1 : Fin 2) * 1024 + 1 * (y 1).val = (i 1).val; omega

/-! ## What a point writes is a block of the cell -/

/-- If a tile, a weight block and a bias block hold the right entries of `x`, `w` and `ht` for the output index `i`, the
    value the body stores at `j` is the cell at `i`. -/
theorem stored_eq_cell (tile : Vec Ideal S1x1024x1024 .f32) (wT : Vec Ideal S1024x1024 .bf16) (row : Vec Ideal S1x1x1024 .f32)
    (x : SeqShape.Idx → EReal) (w : WeightShape.Idx → EReal) (ht : RowShape.Idx → EReal)
    (j : S1x1024x1024.Idx) (i : SeqShape.Idx)
    (htile : ∀ k : Fin 1024, tile (ix3 (0 : Fin 1) (j 1) k) = x (ix3 (i 0) (i 1) k))
    (hw : ∀ k : Fin 1024, wT (ix2 k (j 2)) = w (ix2 (i 2) k))
    (hrow : row (ix3 (0 : Fin 1) (0 : Fin 1) (j 2)) = ht (ix2 (i 0) (i 2))) :
    k0_pay1 (F := Ideal) tile wT row j = cell x w ht i := by
  refine (congrArg (k0_pay1 (F := Ideal) tile wT row) (eq_ix3 j)).trans ((stored_apply tile wT row (j 0) (j 1) (j 2)).trans ?_)
  show _ = Ideal.tanh ((∑ k : Fin 1024, x (ix3 (i 0) (i 1) k) * w (ix2 (i 2) k)) + ht (ix2 (i 0) (i 2)))
  rw [hrow]
  exact congrArg (fun z => Ideal.tanh (z + ht (ix2 (i 0) (i 2)))) (Finset.sum_congr rfl fun k _ => by rw [htile k, hw k])

/-- The cell of the arguments: `x`, `W_ih`, and the host's bias row. -/
abbrev result (c : Dev nD) : S16x2048x1024.Idx → EReal :=
  cell (m ((c : Thread nD τ).loc main_arg0)) (m ((c : Thread nD τ).loc main_arg2))
    (biasRow (F := Ideal) (m ((c : Thread nD τ).loc main_arg1)) (m ((c : Thread nD τ).loc main_arg3))
      (m ((c : Thread nD τ).loc main_arg4)) (m ((c : Thread nD τ).loc main_arg5)))

/-- What point `t` writes back is block `t` of the cell of the arguments. -/
theorem flushed_eq (c : Dev nD) (t : Fin cfg0.N) :
    (dats m 0 c).flushed 3 t = ((cfg0.win 3).blk t).view.read (Elt Ideal) (result m c) := by
  rw [flushed3]
  unfold out0_3
  rw [View.canon_unit_zero zero3]
  simp only [View.ld_unit_zero (S := S1x1024x1024) zero3, View.ld_unit_zero (S := S1024x1024) zero2, View.ld_unit_zero (S := S1x1x1024) zero3]
  obtain ⟨e00, e01, e02, e10, e11, e12, e20, e21, hb, hq, e32⟩ := blockIndex_facts t
  funext j
  have hj0 : (j 0).val < 1 := (j 0).isLt
  have hj1 : (j 1).val < 1024 := (j 1).isLt
  have hj2 : (j 2).val < 1024 := (j 2).isLt
  have i0 : ((((cfg0.win 3).blk t).view.emb j) 0).val = win0_3.index t (0 : Fin 3) * 1 + 1 * (j 0).val := rfl
  have i1 : ((((cfg0.win 3).blk t).view.emb j) 1).val = win0_3.index t (1 : Fin 3) * 1024 + 1 * (j 1).val := rfl
  have i2 : ((((cfg0.win 3).blk t).view.emb j) 2).val = win0_3.index t (2 : Fin 3) * 1024 + 1 * (j 2).val := rfl
  refine stored_eq_cell (iblk m c 0 t) (iblk m c 2 t) (iblk m c 1 t) _ _ _ j (((cfg0.win 3).blk t).view.emb j) (fun k => ?_) (fun k => ?_) ?_
  · refine tile_apply m c t _ _ ?_ ?_ ?_
    · show ((((cfg0.win 3).blk t).view.emb j) 0).val = win0_0.index t (0 : Fin 3) * 1 + 1 * 0; omega
    · show ((((cfg0.win 3).blk t).view.emb j) 1).val = win0_0.index t (1 : Fin 3) * 1024 + 1 * (j 1).val; omega
    · show k.val = win0_0.index t (2 : Fin 3) * 1024 + 1 * k.val; omega
  · refine (weight_apply m c t _ (ix2 k ⟨(j 2).val, hj2⟩) ?_ ?_).trans ((wT_apply m c k _).trans ?_)
    · show k.val = win0_2.index t (0 : Fin 2) * 1024 + 1 * k.val; omega
    · show (j 2).val = win0_2.index t (1 : Fin 2) * 1024 + 1 * (j 2).val; omega
    · congr 1
      funext a; apply Fin.ext
      match a with
      | ⟨0, _⟩ => show (j 2).val = ((((cfg0.win 3).blk t).view.emb j) 2).val; omega
      | ⟨1, _⟩ => rfl
  · refine (row_apply m c t _ (ix3 ⟨win0_3.index t (0 : Fin 3), by omega⟩ (0 : Fin 1) ⟨(j 2).val, hj2⟩) ?_ ?_ ?_).trans ((bias3_apply m c _ _ _).trans ?_)
    · show win0_3.index t (0 : Fin 3) = win0_1.index t (0 : Fin 3) * 1 + 1 * 0; omega
    · show 0 = win0_1.index t (1 : Fin 3) * 1 + 1 * 0; omega
    · show (j 2).val = win0_1.index t (2 : Fin 3) * 1024 + 1 * (j 2).val; omega
    · congr 1
      funext a; apply Fin.ext
      match a with
      | ⟨0, _⟩ => show win0_3.index t (0 : Fin 3) = ((((cfg0.win 3).blk t).view.emb j) 0).val; omega
      | ⟨1, _⟩ => show (j 2).val = ((((cfg0.win 3).blk t).view.emb j) 2).val; omega

/-! ## The blocks tile the output -/

/-- An index of the output is in point `t`'s block iff each coordinate is in the block's range on its axis. -/
theorem mem_block (t : Fin cfg0.N) (i : S16x2048x1024.Idx) :
    i ∈ ((cfg0.win 3).blk t).view.set ↔ ∀ a : Fin 3, win0_3.index t a * S1x1024x1024.size a ≤ (i a).val ∧ (i a).val < win0_3.index t a * S1x1024x1024.size a + S1x1024x1024.size a := by
  show i ∈ ((View.whole main_v11).slice (win0_3.rect t)).set ↔ _
  rw [View.set_slice_whole, Rect.mem_set_unit]
  exact Iff.rfl

/-- Every output index lies in the block of the point that handles its batch entry and its half of the steps. -/
theorem covered (i : S16x2048x1024.Idx) : ∃ t : Fin cfg0.N, (cfg0.win 3).flush t = true ∧ i ∈ ((cfg0.win 3).blk t).view.set := by
  have hi0 : (i 0).val < 16 := (i 0).isLt
  have hi1 : (i 1).val < 2048 := (i 1).isLt
  have hi2 : (i 2).val < 1024 := (i 2).isLt
  obtain ⟨t, ht⟩ := blockIndex_onto ⟨(i 0).val, hi0⟩ ⟨(i 1).val / 1024, by omega⟩
  have q0 : win0_3.index t (0 : Fin 3) = (i 0).val := congrFun ht 0
  have q1 : win0_3.index t (1 : Fin 3) = (i 1).val / 1024 := congrFun ht 1
  have q2 : win0_3.index t (2 : Fin 3) = 0 := congrFun ht 2
  refine ⟨t, flush0_3 t, ?_⟩
  rw [mem_block]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 1024 ≤ (i 2).val ∧ (i 2).val < win0_3.index t (2 : Fin 3) * 1024 + 1024; omega

/-- So the output array ends holding the cell of the arguments. -/
theorem final (c : Dev nD) : (dats m 0 c).arrAt 3 cfg0.N = result m c :=
  (dats m 0 c).arrAt_eq_of_cover 3 (result m c) (fun t _ => flushed_eq m c t) covered

/-! ## The run, read -/

/-- Every weakly fair execution of the idealized kernel ends with the output at the cell of the arguments and the
    arguments unchanged. -/
theorem run : θ_run defs (onTc (τ := τ) (main (F := Ideal))) ⟨m, fun _ => 0, ρ⟩ fun r => ∀ c : Dev nD,
      r.2.mem ((c : Thread nD τ).loc main_v11) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.KernelIdeal.Grid

end
-- ==== Proof.BiasRow.lean ====
/-
  Both programs build the bias row the same way.

  The kernel's host prefix and the reference compute `hx @ W_hh^T + b_hh + b_ih` by the same operations in the same
  order on the same arguments: the transposed hidden-to-hidden weights against the hidden state, then `b_hh` spread over
  the batch, then `b_ih`. The two terms differ only in which program's shape and dimension records they name, and those
  records have the same fields, so the terms are equal by unfolding.
-/
import proofs.«127669_j52381421142740_1_alg».proof.Proof.Gen.ReferenceIdeal.Read
import proofs.«127669_j52381421142740_1_alg».proof.Proof.HostPrefix

noncomputable section

namespace Cert.BiasRow

open Idealize.ShloMosaic

/-- The reference's bias-row stage is the kernel's host bias row of the same four arguments. -/
theorem ref_eq_kernel (x1 : (⟨Cert.ReferenceIdeal.S16x1024, .f32⟩ : BufTy).Contents (Elt Ideal))
    (x3 : (⟨Cert.ReferenceIdeal.S1024x1024, .f32⟩ : BufTy).Contents (Elt Ideal))
    (x4 x5 : (⟨Cert.ReferenceIdeal.S1024, .f32⟩ : BufTy).Contents (Elt Ideal)) :
    Cert.ReferenceIdeal.Read.val_main_v7 (F := Ideal) x1 x3 x4 x5 = Cert.KernelIdeal.HostPrefix.biasRow (F := Ideal) x1 x3 x4 x5 := rfl

end Cert.BiasRow

end
-- ==== Proof.lean ====
/-
  A recurrent cell whose hidden state is never updated, tiled over batch entries and halves of the sequence, against
  its whole-array definition.

  Both programs compute, at batch entry `b`, step `s` and hidden unit `h`,

      tanh ( ∑ k, x[b, s, k] · W_ih[h, k]  +  (hx @ W_hh^T + b_hh + b_ih)[b, h] )

  over the extended reals. The reference does it with one contraction over the whole sequence and a broadcast of the
  bias row along the step axis. The kernel first has the host build the bias row and transpose `W_ih`, then runs a
  16 × 2 grid: each point multiplies a `[1024, 1024]` tile of the sequence (narrowed to half precision, which is the
  identity on the extended reals) by the transposed weights into a zero accumulator, adds its batch entry's bias row,
  applies `tanh` and writes one output block. No law beyond reading each operation at an index is needed: the two
  contractions are the same finite sum with the factors in the same order, the bias rows are the same term, and the
  32 output blocks tile the array. The precondition (finite inputs) is never opened.

  `Cell` states the function; `RefCell` shows the reference computes it; `Payload` reads what one grid point stores;
  `HostPrefix` reads the two arrays the host prepares; `KernelArray` goes from blocks to the whole array; `BiasRow`
  identifies the two programs' bias rows.
-/
import proofs.«127669_j52381421142740_1_alg».proof.Defs
import proofs.«127669_j52381421142740_1_alg».proof.Proof.Gen.Kernel
import proofs.«127669_j52381421142740_1_alg».proof.Proof.Gen.Kernel.Skeleton
import proofs.«127669_j52381421142740_1_alg».proof.Proof.Gen.Kernel.Launch
import proofs.«127669_j52381421142740_1_alg».proof.Proof.Gen.Kernel.Points
import proofs.«127669_j52381421142740_1_alg».proof.Proof.Gen.Kernel.Frame
import proofs.«127669_j52381421142740_1_alg».proof.Proof.Gen.KernelIdeal
import proofs.«127669_j52381421142740_1_alg».proof.Proof.Gen.KernelIdeal.Skeleton
import proofs.«127669_j52381421142740_1_alg».proof.Proof.Gen.KernelIdeal.Launch
import proofs.«127669_j52381421142740_1_alg».proof.Proof.Gen.KernelIdeal.Points
import proofs.«127669_j52381421142740_1_alg».proof.Proof.Gen.KernelIdeal.Frame
import proofs.«127669_j52381421142740_1_alg».proof.Proof.Gen.ReferenceIdeal
import proofs.«127669_j52381421142740_1_alg».proof.Proof.Gen.Pre_finite_inputs
import proofs.«127669_j52381421142740_1_alg».proof.Proof.Gen.KernelIdeal.Value
import proofs.«127669_j52381421142740_1_alg».proof.Proof.Gen.ReferenceIdeal.Run
import proofs.«127669_j52381421142740_1_alg».proof.Proof.Gen.ReferenceIdeal.Read
import proofs.«127669_j52381421142740_1_alg».proof.Proof.Cell
import proofs.«127669_j52381421142740_1_alg».proof.Proof.RefCell
import proofs.«127669_j52381421142740_1_alg».proof.Proof.KernelArray
import proofs.«127669_j52381421142740_1_alg».proof.Proof.BiasRow
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From arguments that agree, the kernel's output array ends at the cell of its arguments with the host's bias row,
    and the reference's at the cell of the same arguments with its own bias row, which is the same term. -/
theorem algebraic : Cert.algebraic_KernelIdeal_ReferenceIdeal := by
  intro m ρ m' ρ' _ hagree
  refine ⟨fun c => Cert.KernelIdeal.Grid.result m c, Cert.KernelIdeal.Grid.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.AsCell.result_eq, Cert.BiasRow.ref_eq_kernel,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
